-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x64 : Shape := ⟨2, ![128, 64]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S1600000 : S_.BroadcastsInDim S1600000 (![] : Fin 0 → Fin S1600000.rank)
  reducesTo_S1600000_S_d0 : S1600000.ReducesTo [0] S_

variable [Facts]

def fn {F : FTy → Type} [FloatOps F] (main_arg0 : FVec F S100000x128 .f32) (main_arg1 : FVec F S128x64 .f32) (main_arg2 : IVec S1600000 32) (main_arg3 : IVec S1600000 32) (main_arg4 : FVec F S1600000 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S1600000 .f32 := Host.absf main_arg4
  let main_cst_2 : FVec F S_ .f32 := constant S_ .f32 0x7F800000#32
  let main_v10 : FVec F S1600000 .f32 := broadcastInDim S1600000 ![] bcast_S_S1600000 main_cst_2
  let main_v11 : IVec S1600000 1 := cmpf .olt main_v9 main_v10
  let main_c_3 : IVec S_ 1 := constantI S_ 1 1#1
  let main_v12 : IVec S_ 1 := (fun x v => Host.reduce IntOp.andi x v reducesTo_S1600000_S_d0 h_S_) main_v11 main_c_3
  let main_v13 : IVec S_ 1 := andi main_v8 main_v12
  main_v13
-- ==== Kernel.lean ====
abbrev S100000x128 : Shape := ⟨2, ![100000, 128]⟩
abbrev S128x64 : Shape := ⟨2, ![128, 64]⟩
abbrev S1600000 : Shape := ⟨1, ![1600000]⟩
abbrev S100000x64 : Shape := ⟨2, ![100000, 64]⟩
abbrev S10000x128 : Shape := ⟨2, ![10000, 128]⟩
abbrev S10000x64 : Shape := ⟨2, ![10000, 64]⟩
abbrev S_ : Shape := ⟨0, ![]⟩
abbrev S1600000x1 : Shape := ⟨2, ![1600000, 1]⟩
abbrev S1600000x64 : Shape := ⟨2, ![1600000, 64]⟩
abbrev S20000x64 : Shape := ⟨2, ![20000, 64]⟩
abbrev S20000x1 : Shape := ⟨2, ![20000, 1]⟩

abbrev nBuf : Space → Nat
  | .hbm => 22
  | .vmem => 15
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S1600000, .i32⟩
  | .hbm, ⟨3, _⟩ => ⟨S1600000, .i32⟩
  | .hbm, ⟨4, _⟩ => ⟨S1600000, .f32⟩
  | .hbm, ⟨5, _⟩ => ⟨S100000x64, .f32⟩
  | .hbm, ⟨6, _⟩ => ⟨S_, .i32⟩
  | .hbm, ⟨7, _⟩ => ⟨S1600000, .i32⟩
  | .hbm, ⟨8, _⟩ => ⟨S1600000, .i1⟩
  | .hbm, ⟨9, _⟩ => ⟨S_, .i32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000x1, .i32⟩
  | .hbm, ⟨14, _⟩ => ⟨S1600000x64, .f32⟩
  | .hbm, ⟨15, _⟩ => ⟨S1600000x1, .f32⟩
  | .hbm, ⟨16, _⟩ => ⟨S1600000x64, .f32⟩
  | .hbm, ⟨17, _⟩ => ⟨S_, .f32⟩
  | .hbm, ⟨18, _⟩ => ⟨S100000x64, .f32⟩
  | .hbm, ⟨19, _⟩ => ⟨S1600000x1, .i32⟩
  | .hbm, ⟨20, _⟩ => ⟨S100000x64, .f32⟩
  | .hbm, ⟨21, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S20000x64, .f32⟩
  | .local _ .vmem, ⟨6, _⟩ => ⟨S20000x64, .f32⟩
  | .local _ .vmem, ⟨7, _⟩ => ⟨S20000x1, .f32⟩
  | .local _ .vmem, ⟨8, _⟩ => ⟨S20000x1, .f32⟩
  | .local _ .vmem, ⟨9, _⟩ => ⟨S20000x64, .f32⟩
  | .local _ .vmem, ⟨10, _⟩ => ⟨S20000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![80], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S20000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S20000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S20000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S1600000_S1600000x1 : S1600000.ShapeCasts S1600000x1
  inb_S20000x64_S20000x64_0_0 : ∀ a, (![0, 0] : Fin 2 → Nat) a + S20000x64.size a ≤ S20000x64.size a
  h_S20000x64 : 0 < S20000x64.numel
  shapeCasts_S20000x64_S20000x64 : S20000x64.ShapeCasts S20000x64
  inb_S20000x1_S20000x1_0_0 : ∀ a, (![0, 0] : Fin 2 → Nat) a + S20000x1.size a ≤ S20000x1.size a
  h_S20000x1 : 0 < S20000x1.numel
  shapeCasts_S20000x1_S20000x1 : S20000x1.ShapeCasts S20000x1
  broadcasts_S20000x1_S20000x64 : S20000x1.Broadcasts S20000x64
  bcast_S_S100000x64 : S_.BroadcastsInDim S100000x64 (![] : Fin 0 → Fin S100000x64.rank)
  shapeCasts_S10000x64_S10000x64 : S10000x64.ShapeCasts S10000x64
  dot_S10000x128_S128x64_S10000x64_1_0_0_1_n_n_wf : DotDims.WF S10000x128 S128x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20000x64.size a ≤ S1600000x64.size a
  hwx1_0 : ∀ i : grid1.Coords, EltTy.bits .f32 = 32 ∨ (Rect.block (s := S1600000x64) S20000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S20000x1.size a ≤ S1600000x1.size a
  hwx1_1 : ∀ i : grid1.Coords, EltTy.bits .f32 = 32 ∨ (Rect.block (s := S1600000x1) S20000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S20000x64.size a ≤ S1600000x64.size a
  hwx1_2 : ∀ i : grid1.Coords, EltTy.bits .f32 = 32 ∨ (Rect.block (s := S1600000x64) S20000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v7) S20000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S20000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S20000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v12) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S10000x64.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

class Facts : Prop extends Facts₀ where

variable [Facts]
-- ==== ReferenceIdeal.lean ====
abbrev S100000x128 : Shape := ⟨2, ![100000, 128]⟩
abbrev S128x64 : Shape := ⟨2, ![128, 64]⟩
abbrev S1600000 : Shape := ⟨1, ![1600000]⟩
abbrev S100000x64 : Shape := ⟨2, ![100000, 64]⟩
abbrev S1600000x1 : Shape := ⟨2, ![1600000, 1]⟩
abbrev S_ : Shape := ⟨0, ![]⟩
abbrev S1600000x64 : Shape := ⟨2, ![1600000, 64]⟩

abbrev nBuf : Space → Nat
  | .hbm => 25
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S1600000, .i32⟩
  | .hbm, ⟨3, _⟩ => ⟨S1600000, .i32⟩
  | .hbm, ⟨4, _⟩ => ⟨S1600000, .f32⟩
  | .hbm, ⟨5, _⟩ => ⟨S100000x64, .f32⟩
  | .hbm, ⟨6, _⟩ => ⟨S1600000x1, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x64, .f32⟩
  | .hbm, ⟨16, _⟩ => ⟨S1600000x64, .f32⟩
  | .hbm, ⟨17, _⟩ => ⟨S1600000x64, .f32⟩
  | .hbm, ⟨18, _⟩ => ⟨S_, .f32⟩
  | .hbm, ⟨19, _⟩ => ⟨S100000x64, .f32⟩
  | .hbm, ⟨20, _⟩ => ⟨S1600000x1, .i32⟩
  | .hbm, ⟨21, _⟩ => ⟨S100000x64, .f32⟩
  | .hbm, ⟨22, _⟩ => ⟨S_, .f32⟩
  | .hbm, ⟨23, _⟩ => ⟨S100000x64, .f32⟩
  | .hbm, ⟨24, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.Clip.lean ====
/-
  The last region of the kernel's program clips an array of shape [100000, 64] below at zero, ten row blocks of
  10000 rows each: grid point t loads rows 10000·t … 10000·t + 9999 of its operand and stores the entrywise maximum
  of that block and zero into the same rows of its result. The blocks tile the array, so after the region the result
  array is the entrywise maximum of the whole operand and zero.
-/
import proofs.«102149_j6502580486593_1_alg».proof.Proof.Gen.KernelIdeal.Frame
import Idealize.ShloMosaic.Lib.Pipeline.Value
import Idealize.ShloMosaic.Lib.ValueIdx

set_option maxRecDepth 16384

noncomputable section

namespace Cert.KernelIdeal.Clip

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem offsets_zero : (![0, 0] : Fin 2 → Nat) = fun _ => 0 := funext fun a => by fin_cases a <;> rfl

/-- An array of shape [100000, 64] clipped below at zero, entry by entry. -/
def clipped (a : S100000x64.Idx → Elt F .f32) : S100000x64.Idx → Elt F .f32 :=
  fun i => FloatOps.maximumf (a i) (FloatOps.ofBits .f32 0x00000000#32)

/-- What the body stores is its loaded block clipped below at zero, entry by entry. -/
theorem payload_eq (x0 : Vec F S10000x64 .f32) :
    k2_pay1 x0 = fun j => FloatOps.maximumf (x0 j) (FloatOps.ofBits .f32 0x00000000#32) := by
  unfold k2_pay1
  simp only [shapeCast_self]
  rfl

/-- Both windows move down the rows together: at point t each is at row block t, column block 0. -/
theorem index_facts : ∀ t : Fin cfg2.N, win2_0.index t (0 : Fin 2) = t.val ∧ win2_0.index t (1 : Fin 2) = 0
    ∧ win2_1.index t (0 : Fin 2) = t.val ∧ win2_1.index t (1 : Fin 2) = 0 :=
  (by decide +kernel : ∀ t : Fin grid2.N, _)

/-- What point t writes back is block t of the clipped operand. -/
theorem flushed_eq (c : Dev nD) (t : Fin cfg2.N) :
    (dat2 V c).flushed 1 t = ((cfg2.win 1).blk t).view.read (Elt F) (clipped (V c main_v12)) := by
  show (cfg2.win 1).cut (grid2.coords t) ((dat2 V c).after 1 t) = _
  rw [after2_1]
  unfold out2_1
  rw [View.canon_unit_zero offsets_zero]
  simp only [View.ld_unit_zero (S := S10000x64) offsets_zero]
  rw [payload_eq]
  obtain ⟨e0, e1, e2, e3⟩ := index_facts t
  funext j
  show FloatOps.maximumf (V c main_v12 (((cfg2.win 0).blk t).view.emb j)) _ = FloatOps.maximumf (V c main_v12 (((cfg2.win 1).blk t).view.emb j)) _
  have h0 : ((cfg2.win 0).blk t).view.emb j = ((cfg2.win 1).blk t).view.emb j := by
    funext a; apply Fin.ext
    match a with
    | ⟨0, _⟩ => show win2_0.index t (0 : Fin 2) * 10000 + 1 * (j 0).val = win2_1.index t (0 : Fin 2) * 10000 + 1 * (j 0).val; omega
    | ⟨1, _⟩ => show win2_0.index t (1 : Fin 2) * 64 + 1 * (j 1).val = win2_1.index t (1 : Fin 2) * 64 + 1 * (j 1).val; omega
  rw [h0]

/-- An index of the result array lies in point t's block iff each coordinate lies in the block's range on its axis. -/
theorem mem_block (t : Fin cfg2.N) (i : S100000x64.Idx) :
    i ∈ ((cfg2.win 1).blk t).view.set ↔ ∀ a : Fin 2, win2_1.index t a * S10000x64.size a ≤ (i a).val ∧ (i a).val < win2_1.index t a * S10000x64.size a + S10000x64.size a := by
  show i ∈ ((View.whole main_v13).slice (win2_1.rect t)).set ↔ _
  rw [View.set_slice_whole, Rect.mem_set_unit]
  exact Iff.rfl

/-- Row r of the result array lies in the block of point r / 10000. -/
theorem covered (i : S100000x64.Idx) :
    ∃ t : Fin cfg2.N, (cfg2.win 1).flush t = true ∧ i ∈ ((cfg2.win 1).blk t).view.set := by
  have hi0 : (i 0).val < 100000 := (i 0).isLt
  have hi1 : (i 1).val < 64 := (i 1).isLt
  have hN : cfg2.N = 10 := N_2
  let t : Fin cfg2.N := ⟨(i 0).val / 10000, by rw [hN]; omega⟩
  obtain ⟨e0, e1, e2, e3⟩ := index_facts t
  have ht : t.val = (i 0).val / 10000 := rfl
  refine ⟨t, flush2_1 t, ?_⟩
  rw [mem_block]
  intro a
  match a with
  | ⟨0, _⟩ => show win2_1.index t (0 : Fin 2) * 10000 ≤ (i 0).val ∧ (i 0).val < win2_1.index t (0 : Fin 2) * 10000 + 10000; omega
  | ⟨1, _⟩ => show win2_1.index t (1 : Fin 2) * 64 ≤ (i 1).val ∧ (i 1).val < win2_1.index t (1 : Fin 2) * 64 + 64; omega

/-- After the region the result array is the operand clipped below at zero. -/
theorem final (c : Dev nD) : (dat2 V c).arrAt 1 cfg2.N = clipped (V c main_v12) :=
  (dat2 V c).arrAt_eq_of_cover 1 (clipped (V c main_v12)) (fun t _ => flushed_eq V c t) covered

end Cert.KernelIdeal.Clip

end
-- ==== Proof.Scale.lean ====
/-
  The middle region of the kernel's program scales the rows of an array of shape [1600000, 64] by a column of shape
  [1600000, 1], eighty row blocks of 20000 rows each: grid point t loads rows 20000·t … 20000·t + 19999 of both operands
  and stores, at row r and column d of the same rows of its result, the product of the first operand's entry (r, d)
  and the column's entry (r, 0). The blocks tile the array, so after the region entry (r, d) of the result array is
  g(r, d) · e(r, 0) for the whole operands g and e.
-/
import proofs.«102149_j6502580486593_1_alg».proof.Proof.Gen.KernelIdeal.Frame
import Idealize.ShloMosaic.Lib.Pipeline.Value
import Idealize.ShloMosaic.Lib.ValueIdx

set_option maxRecDepth 16384

noncomputable section

namespace Cert.KernelIdeal.Scale

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem offsets_zero : (![0, 0] : Fin 2 → Nat) = fun _ => 0 := funext fun a => by fin_cases a <;> rfl

/-- The index (r, 0) of the column for an index (r, d) of the array. -/
abbrev rowHead (i : S1600000x64.Idx) : S1600000x1.Idx := fun a => match a with
  | ⟨0, _⟩ => ⟨(i 0).val, (i 0).isLt⟩
  | ⟨1, _⟩ => ⟨0, Nat.one_pos⟩
/-- The same inside a block of 20000 rows. -/
abbrev rowHeadB (j : S20000x64.Idx) : S20000x1.Idx := fun a => match a with
  | ⟨0, _⟩ => ⟨(j 0).val, (j 0).isLt⟩
  | ⟨1, _⟩ => ⟨0, Nat.one_pos⟩

/-- The rows of g scaled by the column e: entry (r, d) is g(r, d) · e(r, 0). -/
def scaled (g : S1600000x64.Idx → Elt F .f32) (e : S1600000x1.Idx → Elt F .f32) : S1600000x64.Idx → Elt F .f32 :=
  fun i => FloatOps.mulf (g i) (e (rowHead i))

/-- What the body stores at (r, d) is its first block's entry (r, d) times its second block's entry (r, 0): the
    broadcast of a column along the rows reads the column at the row's head. -/
theorem payload_apply (x0 : Vec F S20000x64 .f32) (x1 : Vec F S20000x1 .f32) (j : S20000x64.Idx) :
    k1_pay1 x0 x1 j = FloatOps.mulf (x0 j) (x1 (rowHeadB j)) := by
  unfold k1_pay1
  simp only [shapeCast_self]
  show FloatOps.mulf (x0 j) (broadcastTo S20000x64 x1 _ j) = _
  rw [broadcastTo_apply x1 _ j (rowHeadB j) (fun a => match a with
    | ⟨0, _⟩ => by show (j 0).val = if (20000 : Nat) = 1 then 0 else (j 0).val; rw [if_neg (by decide)]
    | ⟨1, _⟩ => by show 0 = if (1 : Nat) = 1 then 0 else (j 1).val; rw [if_pos rfl])]

/-- The three windows move down the rows together: at point t each is at row block t, column block 0. -/
theorem index_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point t writes back is block t of the scaled array. -/
theorem flushed_eq (c : Dev nD) (t : Fin cfg1.N) :
    (dat1 V c).flushed 2 t = ((cfg1.win 2).blk t).view.read (Elt F) (scaled (V c main_v7) (V c main_v8)) := by
  show (cfg1.win 2).cut (grid1.coords t) ((dat1 V c).after 2 t) = _
  rw [after1_2]
  unfold out1_2
  rw [View.canon_unit_zero offsets_zero]
  simp only [View.ld_unit_zero (S := S20000x64) offsets_zero, View.ld_unit_zero (S := S20000x1) offsets_zero]
  obtain ⟨e0, e1, e2, e3, e4, e5⟩ := index_facts t
  funext j
  show k1_pay1 (iblk1 V c 0 t) (iblk1 V c 1 t) j = scaled (V c main_v7) (V c main_v8) (((cfg1.win 2).blk t).view.emb j)
  refine (payload_apply (iblk1 V c 0 t) (iblk1 V c 1 t) j).trans ?_
  show FloatOps.mulf (V c main_v7 (((cfg1.win 0).blk t).view.emb j)) (V c main_v8 (((cfg1.win 1).blk t).view.emb (rowHeadB j)))
    = FloatOps.mulf (V c main_v7 (((cfg1.win 2).blk t).view.emb j)) (V c main_v8 (rowHead (((cfg1.win 2).blk t).view.emb j)))
  have h0 : ((cfg1.win 0).blk t).view.emb j = ((cfg1.win 2).blk t).view.emb j := by
    funext a; apply Fin.ext
    match a with
    | ⟨0, _⟩ => show win1_0.index t (0 : Fin 2) * 20000 + 1 * (j 0).val = win1_2.index t (0 : Fin 2) * 20000 + 1 * (j 0).val; omega
    | ⟨1, _⟩ => show win1_0.index t (1 : Fin 2) * 64 + 1 * (j 1).val = win1_2.index t (1 : Fin 2) * 64 + 1 * (j 1).val; omega
  have h1 : ((cfg1.win 1).blk t).view.emb (rowHeadB j) = rowHead (((cfg1.win 2).blk t).view.emb j) := by
    funext a; apply Fin.ext
    match a with
    | ⟨0, _⟩ => show win1_1.index t (0 : Fin 2) * 20000 + 1 * (j 0).val = win1_2.index t (0 : Fin 2) * 20000 + 1 * (j 0).val; omega
    | ⟨1, _⟩ => show win1_1.index t (1 : Fin 2) * 1 + 1 * 0 = 0; omega
  rw [h0, h1]

/-- An index of the result array lies in point t's block iff each coordinate lies in the block's range on its axis. -/
theorem mem_block (t : Fin cfg1.N) (i : S1600000x64.Idx) :
    i ∈ ((cfg1.win 2).blk t).view.set ↔ ∀ a : Fin 2, win1_2.index t a * S20000x64.size a ≤ (i a).val ∧ (i a).val < win1_2.index t a * S20000x64.size a + S20000x64.size a := by
  show i ∈ ((View.whole main_v9).slice (win1_2.rect t)).set ↔ _
  rw [View.set_slice_whole, Rect.mem_set_unit]
  exact Iff.rfl

/-- Row r of the result array lies in the block of point r / 20000. -/
theorem covered (i : S1600000x64.Idx) :
    ∃ t : Fin cfg1.N, (cfg1.win 2).flush t = true ∧ i ∈ ((cfg1.win 2).blk t).view.set := by
  have hi0 : (i 0).val < 1600000 := (i 0).isLt
  have hi1 : (i 1).val < 64 := (i 1).isLt
  have hN : cfg1.N = 80 := N_1
  let t : Fin cfg1.N := ⟨(i 0).val / 20000, by rw [hN]; omega⟩
  obtain ⟨e0, e1, e2, e3, e4, e5⟩ := index_facts t
  have ht : t.val = (i 0).val / 20000 := rfl
  refine ⟨t, flush1_2 t, ?_⟩
  rw [mem_block]
  intro a
  match a with
  | ⟨0, _⟩ => show win1_2.index t (0 : Fin 2) * 20000 ≤ (i 0).val ∧ (i 0).val < win1_2.index t (0 : Fin 2) * 20000 + 20000; omega
  | ⟨1, _⟩ => show win1_2.index t (1 : Fin 2) * 64 ≤ (i 1).val ∧ (i 1).val < win1_2.index t (1 : Fin 2) * 64 + 64; omega

/-- After the region the result array is the first operand's rows scaled by the column. -/
theorem final (c : Dev nD) : (dat1 V c).arrAt 2 cfg1.N = scaled (V c main_v7) (V c main_v8) :=
  (dat1 V c).arrAt_eq_of_cover 2 (scaled (V c main_v7) (V c main_v8)) (fun t _ => flushed_eq V c t) covered

end Cert.KernelIdeal.Scale

end
-- ==== Proof.LibPlainDot.lean ====
import Idealize.ShloMosaic.PureOps.Ideal.Laws
import Idealize.ShloMosaic.Lib.ValueIdx
import Idealize.ShloMosaic.PureOps.Dims

/-!
  A plain matrix product: a left operand of shape [M, K] contracted on its axis 1 against a right operand of shape
  [K, N] contracted on its axis 0, with no batch axes, gives a result of shape [M, N] whose entry (p, q) is the sum
  over k < K of l(p, k) · r(k, q). The dimension record is a variable and its six lists are hypotheses, so the lemmas
  apply to every record of this shape.
-/

open scoped BigOperators

namespace Cert.Lib.PlainDot

open Idealize.ShloMosaic Idealize.ShloMosaic.ValueIdx

variable {M K N : Nat} (d : DotDims ⟨2, ![M, K]⟩ ⟨2, ![K, N]⟩ ⟨2, ![M, N]⟩)

/-- With one contracting axis the contraction shape has rank one. -/
theorem rank_contr_eq_one (hlc : d.lhsContracting = [1]) : d.contr.rank = 1 := by
  rw [d.rank_contr, hlc]; rfl

/-- The one axis of the contraction shape has the extent K of the left operand's axis 1. -/
theorem size_contr_eq (hlc : d.lhsContracting = [1]) :
    d.contr.size ⟨0, by rw [rank_contr_eq_one d hlc]; exact Nat.one_pos⟩ = K := by
  have h0 : 0 < d.lhsContracting.length := by rw [hlc]; exact Nat.one_pos
  rw [d.size_contr 0 h0]
  have h1 : d.lhsContracting[0] = 1 := by simp [hlc]
  rw [h1]; rfl

/-- The left operand's index reads, on its non-contracting axis 0, the result index's row. -/
theorem lhsIdx_zero_val (hln : d.lhsNonContracting = [0]) (hlb : d.lhsBatch = [])
    (j : (⟨2, ![M, N]⟩ : Shape).Idx) (k : d.contr.Idx) : (d.lhsIdx j k 0).val = (j 0).val := by
  have hb : (0 : Fin (⟨2, ![M, K]⟩ : Shape).rank) ∉ d.lhsBatch := by rw [hlb]; exact List.not_mem_nil
  have hn : (0 : Fin (⟨2, ![M, K]⟩ : Shape).rank) ∈ d.lhsNonContracting := by rw [hln]; exact List.mem_singleton.mpr rfl
  unfold DotDims.lhsIdx
  rw [dif_neg hb, dif_pos hn]
  simp only [Fin.val_cast]
  have key : ∀ (n : Nat) (h : n < (⟨2, ![M, N]⟩ : Shape).rank), n = 0 → (j ⟨n, h⟩).val = (j 0).val :=
    fun n h e => by subst e; rfl
  exact key _ _ (by simp [hlb, hln])

/-- The right operand's index reads, on its non-contracting axis 1, the result index's column. -/
theorem rhsIdx_one_val (hln : d.lhsNonContracting = [0]) (hrn : d.rhsNonContracting = [1])
    (hlb : d.lhsBatch = []) (hrb : d.rhsBatch = [])
    (j : (⟨2, ![M, N]⟩ : Shape).Idx) (k : d.contr.Idx) : (d.rhsIdx j k 1).val = (j 1).val := by
  have hb : (1 : Fin (⟨2, ![K, N]⟩ : Shape).rank) ∉ d.rhsBatch := by rw [hrb]; exact List.not_mem_nil
  have hn : (1 : Fin (⟨2, ![K, N]⟩ : Shape).rank) ∈ d.rhsNonContracting := by rw [hrn]; exact List.mem_singleton.mpr rfl
  unfold DotDims.rhsIdx
  rw [dif_neg hb, dif_pos hn]
  simp only [Fin.val_cast]
  have key : ∀ (n : Nat) (h : n < (⟨2, ![M, N]⟩ : Shape).rank), n = 1 → (j ⟨n, h⟩).val = (j 1).val :=
    fun n h e => by subst e; rfl
  exact key _ _ (by simp [hlb, hln, hrn])

/-- The contraction sum of a plain matrix product at entry (p, q), re-indexed by the one contraction coordinate, is the
    sum over k < K of l(p, k) · r(k, q). -/
theorem sum_eq (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal) (p : Fin M) (q : Fin N) :
    (∑ k : d.contr.Idx, l (d.lhsIdx (ix2 p q) k) * r (d.rhsIdx (ix2 p q) k)) = ∑ k : Fin K, l (ix2 p k) * r (ix2 k q) := by
  have hr : d.contr.rank = 1 := rank_contr_eq_one d hlc
  have hs : d.contr.size ⟨0, by omega⟩ = K := size_contr_eq d hlc
  refine (Equiv.sum_comp (contrEquiv1 d K hr hs).symm
    (fun k => l (d.lhsIdx (ix2 p q) k) * r (d.rhsIdx (ix2 p q) k))).symm.trans ?_
  refine Finset.sum_congr rfl fun i _ => ?_
  have hL : d.lhsIdx (ix2 p q) ((contrEquiv1 d K hr hs).symm i) = ix2 p i := by
    funext a
    match a with
    | ⟨0, _⟩ => exact Fin.ext (lhsIdx_zero_val d hln hlb _ _)
    | ⟨1, _⟩ => exact Fin.ext ((d.lhsIdx_val_of_single hlc _ _).trans (contrEquiv1_symm_val d K hr hs i))
  have hR : d.rhsIdx (ix2 p q) ((contrEquiv1 d K hr hs).symm i) = ix2 i q := by
    funext a
    match a with
    | ⟨0, _⟩ => exact Fin.ext ((d.rhsIdx_val_of_single hrc _ _).trans (contrEquiv1_symm_val d K hr hs i))
    | ⟨1, _⟩ => exact Fin.ext (rhsIdx_one_val d hln hrn hlb hrb _ _)
  show l _ * r _ = _
  rw [hL, hR]

/-- A plain matrix product accumulated into the zero splat, read at entry (p, q) at the ideal values, is the sum over
    k < K of l(p, k) · r(k, q). -/
theorem matmul_zero_apply {φ₁ φ₂ : FTy} (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (l : FVec Ideal ⟨2, ![M, K]⟩ φ₁) (r : FVec Ideal ⟨2, ![K, N]⟩ φ₂) (p : Fin M) (q : Fin N) :
    FloatOps.matmul d prec l r (constant (F := Ideal) ⟨2, ![M, N]⟩ .f32 0x00000000#32) (ix2 p q)
      = ∑ k : Fin K, l (ix2 p k) * r (ix2 k q) :=
  (Ideal.matmul_constant_zero_apply d prec l r (ix2 p q)).trans (sum_eq d hlc hrc hln hrn hlb hrb l r p q)

/-- The host's plain matrix product, read at entry (p, q) at the ideal values, is the sum over k < K of
    l(p, k) · r(k, q), whatever the schedule. -/
theorem dotGeneral_apply {φ₁ φ₂ : FTy} (hlc : d.lhsContracting = [1]) (hrc : d.rhsContracting = [0])
    (hln : d.lhsNonContracting = [0]) (hrn : d.rhsNonContracting = [1])
    (hlb : d.lhsBatch = []) (hrb : d.rhsBatch = []) (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ k : Fin K, l (ix2 p k) * r (ix2 k q) :=
  (Ideal.dotGeneral_apply d prec sched l r (ix2 p q)).trans (sum_eq d hlc hrc hln hrn hlb hrb l r p q)

end Cert.Lib.PlainDot
-- ==== Proof.Dense.lean ====
/-
  The first region of the kernel's program multiplies x of shape [100000, 128] by w of shape [128, 64], ten row
  blocks of 10000 rows each: grid point t loads rows 10000·t … 10000·t + 9999 of x and the whole of w, and stores
  their matrix product, accumulated from zero, into the same rows of its result. On the extended reals a change of
  float format is the identity, so entry (p, q) of that block product is the sum over k < 128 of x(10000·t + p, k) ·
  w(k, q). The blocks tile the array, so after the region entry (r, q) of the result array is the sum over k of
  x(r, k) · w(k, q).
-/
import proofs.«102149_j6502580486593_1_alg».proof.Proof.Gen.KernelIdeal.Frame
import Idealize.ShloMosaic.Lib.Pipeline.Value
import Idealize.ShloMosaic.Lib.ValueIdx
import proofs.«102149_j6502580486593_1_alg».proof.Proof.LibPlainDot

set_option maxRecDepth 16384

noncomputable section

open scoped BigOperators

namespace Cert.KernelIdeal.Dense

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem offsets_zero : (![0, 0] : Fin 2 → Nat) = fun _ => 0 := funext fun a => by fin_cases a <;> rfl

/-- The index (r, k) of the left operand for the result index (r, q). -/
abbrev lrow (i : S100000x64.Idx) (k : Fin 128) : S100000x128.Idx := fun a => match a with
  | ⟨0, _⟩ => ⟨(i 0).val, (i 0).isLt⟩
  | ⟨1, _⟩ => ⟨k.val, k.isLt⟩
/-- The index (k, q) of the right operand for the result index (r, q). -/
abbrev rcol (i : S100000x64.Idx) (k : Fin 128) : S128x64.Idx := fun a => match a with
  | ⟨0, _⟩ => ⟨k.val, k.isLt⟩
  | ⟨1, _⟩ => ⟨(i 1).val, (i 1).isLt⟩
/-- The same inside a block of 10000 rows. -/
abbrev lrowB (j : S10000x64.Idx) (k : Fin 128) : S10000x128.Idx := fun a => match a with
  | ⟨0, _⟩ => ⟨(j 0).val, (j 0).isLt⟩
  | ⟨1, _⟩ => ⟨k.val, k.isLt⟩
abbrev rcolB (j : S10000x64.Idx) (k : Fin 128) : S128x64.Idx := fun a => match a with
  | ⟨0, _⟩ => ⟨k.val, k.isLt⟩
  | ⟨1, _⟩ => ⟨(j 1).val, (j 1).isLt⟩

/-- The matrix product of x and w on the extended reals: entry (r, q) is the sum over k of x(r, k) · w(k, q). -/
def product (x : FVec Ideal S100000x128 .f32) (w : FVec Ideal S128x64 .f32) : FVec Ideal S100000x64 .f32 :=
  fun i => ∑ k : Fin 128, x (lrow i k) * w (rcol i k)

/-- The two operands as the region finds them, at their literal types. -/
abbrev xarr (c : Dev nD) : FVec Ideal S100000x128 .f32 := V c main_arg0
abbrev warr (c : Dev nD) : FVec Ideal S128x64 .f32 := V c main_arg1

/-- What the body stores at (p, q) is the sum over k of its first block's entry (p, k) times its second block's
    entry (k, q): the narrowing of the operands is the identity, and the product is accumulated from zero. -/
theorem payload_apply (x0 : FVec Ideal S10000x128 .f32) (x1 : FVec Ideal S128x64 .f32) (j : S10000x64.Idx) :
    k0_pay1 (F := Ideal) x0 x1 j = ∑ k : Fin 128, x0 (lrowB j k) * x1 (rcolB j k) := by
  obtain ⟨p, q, rfl⟩ : ∃ (p : Fin 10000) (q : Fin 64), j = ValueIdx.ix2 p q := ⟨j 0, j 1, ValueIdx.eq_ix2 j⟩
  unfold k0_pay1
  refine (Cert.Lib.PlainDot.matmul_zero_apply dot_S10000x128_S128x64_S10000x64_1_0_0_1_n_n rfl rfl rfl rfl rfl rfl none _ _ p q).trans ?_
  refine Finset.sum_congr rfl fun k _ => ?_
  have hl : (ValueIdx.ix2 p k : S10000x128.Idx) = lrowB (ValueIdx.ix2 p q) k :=
    funext fun a => by match a with | ⟨0, _⟩ => rfl | ⟨1, _⟩ => rfl
  have hr : (ValueIdx.ix2 k q : S128x64.Idx) = rcolB (ValueIdx.ix2 p q) k :=
    funext fun a => by match a with | ⟨0, _⟩ => rfl | ⟨1, _⟩ => rfl
  show x0 (ValueIdx.ix2 p k) * x1 (ValueIdx.ix2 k q) = _
  rw [hl, hr]

/-- The left operand's and the result's windows move down the rows together, at row block t; the right operand's
    window stays at its one block. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the matrix product of the whole operands. -/
theorem flushed_eq (c : Dev nD) (t : Fin cfg0.N) :
    (dat0 V c).flushed 2 t = ((cfg0.win 2).blk t).view.read (Elt Ideal) (product (xarr V c) (warr V c)) := by
  show (cfg0.win 2).cut (grid0.coords t) ((dat0 V c).after 2 t) = _
  rw [after0_2]
  unfold out0_2
  rw [View.canon_unit_zero offsets_zero]
  simp only [View.ld_unit_zero (S := S10000x128) offsets_zero, View.ld_unit_zero (S := S128x64) offsets_zero]
  obtain ⟨e0, e1, e2, e3, e4, e5⟩ := index_facts t
  funext j
  show k0_pay1 (iblk0 V c 0 t) (iblk0 V c 1 t) j = product (xarr V c) (warr V c) (((cfg0.win 2).blk t).view.emb j)
  refine (payload_apply (iblk0 V c 0 t) (iblk0 V c 1 t) j).trans ?_
  unfold product
  refine Finset.sum_congr rfl fun k _ => ?_
  have h0 : ((cfg0.win 0).blk t).view.emb (lrowB j k) = lrow (((cfg0.win 2).blk t).view.emb j) k := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  have h1 : ((cfg0.win 1).blk t).view.emb (rcolB j k) = rcol (((cfg0.win 2).blk t).view.emb j) k := by
    funext a; apply Fin.ext
    match a with
    | ⟨0, _⟩ => show win0_1.index t (0 : Fin 2) * 128 + 1 * k.val = k.val; omega
    | ⟨1, _⟩ => show win0_1.index t (1 : Fin 2) * 64 + 1 * (j 1).val = win0_2.index t (1 : Fin 2) * 64 + 1 * (j 1).val; omega
  show xarr V c (((cfg0.win 0).blk t).view.emb (lrowB j k)) * warr V c (((cfg0.win 1).blk t).view.emb (rcolB j k))
    = xarr V c (lrow (((cfg0.win 2).blk t).view.emb j) k) * warr V c (rcol (((cfg0.win 2).blk t).view.emb j) k)
  rw [h0, h1]

/-- An index of the result array lies in point t's block iff each coordinate lies in the block's range on its axis. -/
theorem mem_block (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v0).slice (win0_2.rect t)).set ↔ _
  rw [View.set_slice_whole, Rect.mem_set_unit]
  exact Iff.rfl

/-- Row r of the result array lies in the block of point r / 10000. -/
theorem covered (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  let t : Fin cfg0.N := ⟨(i 0).val / 10000, by rw [hN]; omega⟩
  obtain ⟨e0, e1, e2, e3, e4, e5⟩ := index_facts t
  have ht : t.val = (i 0).val / 10000 := rfl
  refine ⟨t, flush0_2 t, ?_⟩
  rw [mem_block]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- After the region the result array is the matrix product of the operands as the region finds them. -/
theorem final (c : Dev nD) : (dat0 V c).arrAt 2 cfg0.N = product (xarr V c) (warr V c) :=
  (dat0 V c).arrAt_eq_of_cover 2 (product (xarr V c) (warr V c)) (fun t _ => flushed_eq V c t) covered

end Cert.KernelIdeal.Dense

end
-- ==== Proof.Whole.lean ====
/-
  The kernel's program from launch to return, read as one value. Its first region leaves the matrix product of the
  arguments x and w; the host then wraps negative column indices by the number of rows, gathers the product's rows at
  them and reshapes the edge weights into a column; the second region scales the gathered rows by that column; the
  host adds each scaled row into the row of a zero array that its row index names; the last region clips the sums
  below at zero. Each boundary's contents are read off the one before, so the result buffer ends holding `result` of
  the five arguments as launched.
-/
import proofs.«102149_j6502580486593_1_alg».proof.Proof.Gen.KernelIdeal.Frame
import proofs.«102149_j6502580486593_1_alg».proof.Proof.KernelRun
import proofs.«102149_j6502580486593_1_alg».proof.Proof.Clip
import proofs.«102149_j6502580486593_1_alg».proof.Proof.Scale
import proofs.«102149_j6502580486593_1_alg».proof.Proof.Dense
import Idealize.ShloMosaic.Lib.StableHlo.Run
import Idealize.ShloMosaic.PureOps.Ideal

set_option maxRecDepth 16384

noncomputable section

namespace Cert.KernelIdeal.Whole

open Cert.KernelIdeal Cert.KernelIdeal.Gen Idealize.ShloMosaic Idealize.ShloMosaic.TcCoe Idealize.SL.Sem
open Idealize.ShloMosaic.StableHlo

/-- The column indices as the gather reads them: a negative index has the number of rows added to it, and the
    indices are laid out as a column. -/
def wrapped (a3 : (⟨S1600000, .i32⟩ : BufTy).Contents (Elt Ideal)) : (⟨S1600000x1, .i32⟩ : BufTy).Contents (Elt Ideal) :=
  broadcastInDim S1600000x1 ![0] Facts₀.bcast_S1600000_S1600000x1_0
    (select (cmpi .slt a3 (broadcastInDim S1600000 ![] Facts₀.bcast_S_S1600000 (constantI S_ 32 0#32)))
      (addi a3 (broadcastInDim S1600000 ![] Facts₀.bcast_S_S1600000 (constantI S_ 32 100000#32))) a3)

/-- The rows of x·w gathered at the wrapped column indices and scaled by the edge weights. -/
def messages (a0 : (⟨S100000x128, .f32⟩ : BufTy).Contents (Elt Ideal)) (a1 : (⟨S128x64, .f32⟩ : BufTy).Contents (Elt Ideal))
    (a3 : (⟨S1600000, .i32⟩ : BufTy).Contents (Elt Ideal)) (a4 : (⟨S1600000, .f32⟩ : BufTy).Contents (Elt Ideal)) :
    (⟨S1600000x64, .f32⟩ : BufTy).Contents (Elt Ideal) :=
  Scale.scaled (Host.gather gather_S100000x64_S1600000x1_S1600000x64_1_0_n_n_0_1_164 (Dense.product a0 a1) (wrapped a3))
    (shapeCast S1600000x1 a4 Facts₀.shapeCasts_S1600000_S1600000x1)

/-- The messages added into a zero array at their row indices. -/
def summed (a0 : (⟨S100000x128, .f32⟩ : BufTy).Contents (Elt Ideal)) (a1 : (⟨S128x64, .f32⟩ : BufTy).Contents (Elt Ideal))
    (a2 a3 : (⟨S1600000, .i32⟩ : BufTy).Contents (Elt Ideal)) (a4 : (⟨S1600000, .f32⟩ : BufTy).Contents (Elt Ideal)) :
    (⟨S100000x64, .f32⟩ : BufTy).Contents (Elt Ideal) :=
  Host.scatterAdd (F := Ideal) scatter_S100000x64_S1600000x1_S1600000x64_1_0_0_1
    (broadcastInDim S100000x64 ![] Facts₀.bcast_S_S100000x64 (constant (F := Ideal) S_ .f32 0x00000000#32))
    (broadcastInDim S1600000x1 ![0] Facts₀.bcast_S1600000_S1600000x1_0 a2)
    (messages a0 a1 a3 a4)

/-- What the kernel's program returns: the sums clipped below at zero. -/
def result (a0 : (⟨S100000x128, .f32⟩ : BufTy).Contents (Elt Ideal)) (a1 : (⟨S128x64, .f32⟩ : BufTy).Contents (Elt Ideal))
    (a2 a3 : (⟨S1600000, .i32⟩ : BufTy).Contents (Elt Ideal)) (a4 : (⟨S1600000, .f32⟩ : BufTy).Contents (Elt Ideal)) :
    (⟨S100000x64, .f32⟩ : BufTy).Contents (Elt Ideal) :=
  Clip.clipped (summed a0 a1 a2 a3 a4)

variable (m : (ℓ : Loc nD τ sig) → Buf (Elt Ideal) ℓ) (ρ : Dev nD → PrngReg)

/-- The first region writes none of the index or weight arguments. -/
theorem arg2_after_first (c : Dev nD) : W1 m ρ c (Proc.devRef .tc main_arg2) = m ((c : Thread nD τ).loc main_arg2) :=
  W1_of_ne m ρ c main_arg2 (by decide)
theorem arg3_after_first (c : Dev nD) : W1 m ρ c (Proc.devRef .tc main_arg3) = m ((c : Thread nD τ).loc main_arg3) :=
  W1_of_ne m ρ c main_arg3 (by decide)
theorem arg4_after_first (c : Dev nD) : W1 m ρ c (Proc.devRef .tc main_arg4) = m ((c : Thread nD τ).loc main_arg4) :=
  W1_of_ne m ρ c main_arg4 (by decide)

/-- After the first region its result buffer holds the product of the arguments x and w. -/
theorem product_after_first (c : Dev nD) :
    W1 m ρ c (Proc.devRef .tc main_v0) = Dense.product (m ((c : Thread nD τ).loc main_arg0)) (m ((c : Thread nD τ).loc main_arg1)) :=
  (W1_arr m ρ c 2).trans (Dense.final (V0 m ρ) c)

/-- The host's gather reads the product at the wrapped column indices. -/
theorem gathered_before_second (c : Dev nD) :
    W2 m ρ c (Proc.devRef .tc main_v7) = Host.gather gather_S100000x64_S1600000x1_S1600000x64_1_0_n_n_0_1_164
      (Dense.product (m ((c : Thread nD τ).loc main_arg0)) (m ((c : Thread nD τ).loc main_arg1))) (wrapped (m ((c : Thread nD τ).loc main_arg3))) := by
  show StableHlo.after hostOps1 (W1 m ρ c) (Proc.devRef .tc main_v7) = _
  after_results
  rw [product_after_first, arg3_after_first]
  rfl

/-- The host's reshape lays the edge weights out as a column. -/
theorem column_before_second (c : Dev nD) :
    W2 m ρ c (Proc.devRef .tc main_v8) = shapeCast S1600000x1 (m ((c : Thread nD τ).loc main_arg4)) Facts₀.shapeCasts_S1600000_S1600000x1 := by
  show StableHlo.after hostOps1 (W1 m ρ c) (Proc.devRef .tc main_v8) = _
  after_results
  rw [arg4_after_first]
  rfl

/-- After the second region its result buffer holds the messages. -/
theorem messages_after_second (c : Dev nD) :
    W3 m ρ c (Proc.devRef .tc main_v9) = messages (m ((c : Thread nD τ).loc main_arg0)) (m ((c : Thread nD τ).loc main_arg1))
      (m ((c : Thread nD τ).loc main_arg3)) (m ((c : Thread nD τ).loc main_arg4)) := by
  refine (W3_arr m ρ c 2).trans ((Scale.final (V2 m ρ) c).trans ?_)
  show Scale.scaled (W2 m ρ c (Proc.devRef .tc main_v7)) (W2 m ρ c (Proc.devRef .tc main_v8)) = _
  rw [gathered_before_second, column_before_second]
  rfl

/-- Neither the host operations before the second region nor that region write the row indices. -/
theorem arg2_after_second (c : Dev nD) : W3 m ρ c (Proc.devRef .tc main_arg2) = m ((c : Thread nD τ).loc main_arg2) := by
  refine (W3_of_ne m ρ c main_arg2 (by decide)).trans ?_
  show StableHlo.after hostOps1 (W1 m ρ c) (Proc.devRef .tc main_arg2) = _
  after_results
  exact arg2_after_first m ρ c

/-- The host's scatter adds the messages into a zero array at the row indices. -/
theorem summed_before_third (c : Dev nD) :
    W4 m ρ c (Proc.devRef .tc main_v12) = summed (m ((c : Thread nD τ).loc main_arg0)) (m ((c : Thread nD τ).loc main_arg1))
      (m ((c : Thread nD τ).loc main_arg2)) (m ((c : Thread nD τ).loc main_arg3)) (m ((c : Thread nD τ).loc main_arg4)) := by
  show StableHlo.after hostOps2 (W3 m ρ c) (Proc.devRef .tc main_v12) = _
  after_results
  rw [arg2_after_second, messages_after_second]
  rfl

/-- After the last region the result buffer holds `result` of the arguments as launched. -/
theorem result_after_third (c : Dev nD) :
    W5 m ρ c (Proc.devRef .tc main_v13) = result (m ((c : Thread nD τ).loc main_arg0)) (m ((c : Thread nD τ).loc main_arg1))
      (m ((c : Thread nD τ).loc main_arg2)) (m ((c : Thread nD τ).loc main_arg3)) (m ((c : Thread nD τ).loc main_arg4)) := by
  refine (W5_arr m ρ c 1).trans ((Clip.final (V4 m ρ) c).trans ?_)
  show Clip.clipped (W4 m ρ c (Proc.devRef .tc main_v12)) = _
  rw [summed_before_third]
  rfl

/-- Every weakly fair execution of the kernel's program terminates without a fault, with the result buffer at
    `result` of the arguments as launched and the arguments unchanged. -/
theorem run : θ_run defs (onTc (τ := τ) (main (F := Ideal))) ⟨m, fun _ => 0, ρ⟩ (fun r => ∀ c : Dev nD,
      r.2.mem ((c.tc : Thread nD τ).loc main_v13) = result (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1.trans (result_after_third m ρ c), (h c).2⟩) (Launch.run_named m ρ)

end Cert.KernelIdeal.Whole

end
-- ==== Proof.Bridge.lean ====
/-
  On the extended reals the kernel's program and the reference compute one function of the five arguments. Both
  form x·w (entry (r, q) the sum over k of x(r, k) · w(k, q)), gather its rows at the same wrapped column indices,
  add the weighted rows into a zero array at the same row indices and clip the sums below at zero. They differ in two
  places only: the kernel lays the edge weights out as a column by a reshape where the reference broadcasts them, and
  both read weight e at every entry of row e; and the kernel multiplies the gathered entry by the weight where the
  reference multiplies the weight by the gathered entry, which commutativity of the product on the extended reals
  joins. Nothing here needs the inputs finite.
-/
import proofs.«102149_j6502580486593_1_alg».proof.Proof.Whole
import proofs.«102149_j6502580486593_1_alg».proof.Proof.Gen.ReferenceIdeal.Read
import Idealize.ShloMosaic.Lib.Pipeline.Value
import Idealize.ShloMosaic.PureOps.Ideal

set_option maxRecDepth 16384

open scoped BigOperators

noncomputable section

namespace Cert.Bridge

open Idealize.ShloMosaic Idealize.ShloMosaic.TcCoe
open Cert.ReferenceIdeal.Read
open Cert.KernelIdeal (S100000x128 S128x64 S1600000 S1600000x1 S1600000x64 S100000x64)

variable (a0 : (⟨S100000x128, .f32⟩ : BufTy).Contents (Elt Ideal)) (a1 : (⟨S128x64, .f32⟩ : BufTy).Contents (Elt Ideal))
  (a2 a3 : (⟨S1600000, .i32⟩ : BufTy).Contents (Elt Ideal)) (a4 : (⟨S1600000, .f32⟩ : BufTy).Contents (Elt Ideal))

/-- The kernel's product of x and w is the reference's: both are the sum over k of x(r, k) · w(k, q). -/
theorem product_eq : Cert.KernelIdeal.Dense.product a0 a1 = val_main_v0 (F := Ideal) a0 a1 := by
  funext i
  rw [val_main_v0_apply]
  show (∑ k : Fin 128, a0 (Cert.KernelIdeal.Dense.lrow i k) * a1 (Cert.KernelIdeal.Dense.rcol i k)) = _
  refine Finset.sum_congr rfl fun k _ => ?_
  have hl : Cert.KernelIdeal.Dense.lrow i k = lidx_main_v0 i k :=
    funext fun a => by match a with | ⟨0, _⟩ => rfl | ⟨1, _⟩ => rfl
  have hr : Cert.KernelIdeal.Dense.rcol i k = ridx_main_v0 i k :=
    funext fun a => by match a with | ⟨0, _⟩ => rfl | ⟨1, _⟩ => rfl
  rw [hl, hr]

/-- Both programs wrap the column indices by the same operations. -/
theorem wrapped_eq : Cert.KernelIdeal.Whole.wrapped a3 = val_main_v7 (F := Ideal) a3 := rfl

/-- So both gather the same rows. -/
theorem gathered_eq :
    Host.gather Cert.KernelIdeal.gather_S100000x64_S1600000x1_S1600000x64_1_0_n_n_0_1_164 (Cert.KernelIdeal.Dense.product a0 a1) (Cert.KernelIdeal.Whole.wrapped a3)
      = val_main_v8 (F := Ideal) a0 a1 a3 := by
  unfold val_main_v8
  rw [product_eq, wrapped_eq]
  generalize val_main_v0 (F := Ideal) a0 a1 = s
  generalize val_main_v7 (F := Ideal) a3 = j
  rfl

/-- The kernel's column of edge weights read at the head of row e, and the reference's broadcast read at any entry of
    row e, are both weight e. -/
theorem column_eq (i : S1600000x64.Idx) :
    shapeCast S1600000x1 a4 Cert.KernelIdeal.Facts₀.shapeCasts_S1600000_S1600000x1 (Cert.KernelIdeal.Scale.rowHead i)
      = val_main_v9 (F := Ideal) a4 i := by
  rw [val_main_v9_apply, val_main_v1_apply]
  refine shapeCast_apply a4 _ (Cert.KernelIdeal.Scale.rowHead i) (idx_main_v1 (idx_main_v9 i)) ?_
  rw [Shape.rowMajor_val_one, Shape.rowMajor_val_two]
  show (i 0).val = (i 0).val * 1 + 0
  omega

/-- The messages agree: the gathered entry times the weight is the weight times the gathered entry. -/
theorem messages_eq : Cert.KernelIdeal.Whole.messages a0 a1 a3 a4 = val_main_v10 (F := Ideal) a0 a1 a3 a4 := by
  unfold Cert.KernelIdeal.Whole.messages val_main_v10
  rw [gathered_eq]
  generalize val_main_v8 (F := Ideal) a0 a1 a3 = g
  funext i
  show FloatOps.mulf (F := Ideal) (φ := .f32) (g i) (shapeCast S1600000x1 a4 Cert.KernelIdeal.Facts₀.shapeCasts_S1600000_S1600000x1 (Cert.KernelIdeal.Scale.rowHead i))
    = FloatOps.mulf (F := Ideal) (φ := .f32) (val_main_v9 (F := Ideal) a4 i) (g i)
  rw [column_eq]
  generalize val_main_v9 (F := Ideal) a4 i = e
  generalize g i = p
  exact mul_comm p e

/-- Both add the messages into a zero array at the same row indices. -/
theorem summed_eq : Cert.KernelIdeal.Whole.summed a0 a1 a2 a3 a4 = val_main_v13 (F := Ideal) a0 a1 a2 a3 a4 := by
  unfold Cert.KernelIdeal.Whole.summed val_main_v13
  rw [messages_eq]
  generalize val_main_v10 (F := Ideal) a0 a1 a3 a4 = u
  rfl

/-- Both clip the sums below at zero: the two programs' results are one function of the arguments. -/
theorem result_eq : Cert.KernelIdeal.Whole.result a0 a1 a2 a3 a4 = val_main_v14 (F := Ideal) a0 a1 a2 a3 a4 := by
  unfold Cert.KernelIdeal.Whole.result val_main_v14 Cert.KernelIdeal.Clip.clipped maximumf
  rw [summed_eq]
  generalize val_main_v13 (F := Ideal) a0 a1 a2 a3 a4 = s
  funext i
  beta_reduce
  rw [val_main_call0_v0_apply, val_main_call0_cst_apply]

end Cert.Bridge

end
-- ==== Proof.lean ====
/-
  The kernel computes relu of the sparse product A·(x·w), the matrix A given by its entries' row indices, column
  indices and values: x·w by a blocked matrix product on operands narrowed to a shorter float format, the rows of x·w
  gathered at the column indices by the host, each gathered row scaled by its entry's value in a second blocked
  region, the scaled rows added at their row indices by the host, and the sums clipped below at zero in a third blocked
  region. The reference does the same with host operations throughout. On the extended reals the narrowing is the
  identity and a blocked product is the product, so the two are one function of the arguments (the modules under
  Proof/ read the kernel's value region by region and join it to the reference's stage by stage; the one algebraic law
  used is commutativity of the product). The kernel's idealized program is the kernel's own text read on the extended
  reals, so there is nothing to preserve. Each program runs to the end without a fault and leaves its arguments as
  they were.
-/
import proofs.«102149_j6502580486593_1_alg».proof.Defs
import proofs.«102149_j6502580486593_1_alg».proof.Proof.Gen.Kernel
import proofs.«102149_j6502580486593_1_alg».proof.Proof.Gen.Kernel.Frame
import proofs.«102149_j6502580486593_1_alg».proof.Proof.Gen.KernelIdeal
import proofs.«102149_j6502580486593_1_alg».proof.Proof.Gen.KernelIdeal.Frame
import proofs.«102149_j6502580486593_1_alg».proof.Proof.Gen.ReferenceIdeal
import proofs.«102149_j6502580486593_1_alg».proof.Proof.Gen.ReferenceIdeal.Run
import proofs.«102149_j6502580486593_1_alg».proof.Proof.Gen.ReferenceIdeal.Read
import proofs.«102149_j6502580486593_1_alg».proof.Proof.Gen.Pre_finite_inputs
import proofs.«102149_j6502580486593_1_alg».proof.Proof.Whole
import proofs.«102149_j6502580486593_1_alg».proof.Proof.Bridge
import Idealize.ShloMosaic.Adequacy
import Idealize.ShloMosaic.Init

noncomputable section

namespace Cert.Proof

open Idealize.ShloMosaic Idealize.ShloMosaic.TcCoe Idealize.SL.Sem

/-- The kernel's program, word by word, runs to the end and leaves its arguments as they were. -/
theorem frame_kernel : Cert.frame_Kernel := fun m ρ _ => Cert.Kernel.Gen.frame m ρ

/-- So does its reading on the extended reals. -/
theorem frame_kernel_ideal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for the reading on the extended reals. -/
theorem preserves : Cert.preserves_Kernel_KernelIdeal := trivial

/-- From memories that agree on the arguments both programs end with the same result: the kernel's run leaves
    `result` of its arguments, the reference's run leaves its composed term of its own, and the two are one function. -/
theorem algebraic : Cert.algebraic_KernelIdeal_ReferenceIdeal := by
  intro m ρ m' ρ' _ hagree
  refine ⟨fun c => Cert.KernelIdeal.Whole.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4⟩ := hagree c
  rw [e0, e1, e2, e3, e4]
  exact (Cert.ReferenceIdeal.Read.val_main_v14_eq _ _ _ _ _).trans (Cert.Bridge.result_eq _ _ _ _ _).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
